-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64x64 : Shape := ⟨4, ![64, 256, 64, 64]⟩
abbrev S_ : Shape := ⟨0, ![]⟩

class Facts : Prop where
  bcast_S_S64x256x64x64 : S_.BroadcastsInDim S64x256x64x64 (![] : Fin 0 → Fin S64x256x64x64.rank)
  reducesTo_S64x256x64x64_S_d0_1_2_3 : S64x256x64x64.ReducesTo [0, 1, 2, 3] S_
  h_S_ : 0 < S_.numel

variable [Facts]

def fn {F : FTy → Type} [FloatOps F] (main_arg0 : FVec F S64x256x64x64 .f32) (main_arg1 : FVec F S64x256x64x64 .f32) : IVec S_ 1 :=
  let main_v0 : FVec F S64x256x64x64 .f32 := Host.absf main_arg0
  let main_cst : FVec F S_ .f32 := constant S_ .f32 0x7F800000#32
  let main_v1 : FVec F S64x256x64x64 .f32 := broadcastInDim S64x256x64x64 ![] bcast_S_S64x256x64x64 main_cst
  let main_v2 : IVec S64x256x64x64 1 := cmpf .olt main_v0 main_v1
  let main_c : IVec S_ 1 := constantI S_ 1 1#1
  let main_v3 : IVec S_ 1 := (fun x v => Host.reduce IntOp.andi x v reducesTo_S64x256x64x64_S_d0_1_2_3 h_S_) main_v2 main_c
  let main_v4 : FVec F S64x256x64x64 .f32 := Host.absf main_arg1
  let main_cst_0 : FVec F S_ .f32 := constant S_ .f32 0x7F800000#32
  let main_v5 : FVec F S64x256x64x64 .f32 := broadcastInDim S64x256x64x64 ![] bcast_S_S64x256x64x64 main_cst_0
  let main_v6 : IVec S64x256x64x64 1 := cmpf .olt main_v4 main_v5
  let main_c_1 : IVec S_ 1 := constantI S_ 1 1#1
  let main_v7 : IVec S_ 1 := (fun x v => Host.reduce IntOp.andi x v reducesTo_S64x256x64x64_S_d0_1_2_3 h_S_) main_v6 main_c_1
  let main_v8 : IVec S_ 1 := andi main_v3 main_v7
  main_v8
-- ==== Kernel.lean ====
abbrev S64x256x64x64 : Shape := ⟨4, ![64, 256, 64, 64]⟩
abbrev S16384x4096 : Shape := ⟨2, ![16384, 4096]⟩
abbrev S256x4096 : Shape := ⟨2, ![256, 4096]⟩

abbrev nBuf : Space → Nat
  | .hbm => 6
  | .vmem => 6
  | .smem => 0
  | _ => 0

abbrev bufTy : (tb : Table) → Fin (tcTables nBuf tb) → BufTy
  | .hbm, ⟨0, _⟩ => ⟨S64x256x64x64, .f32⟩
  | .hbm, ⟨1, _⟩ => ⟨S64x256x64x64, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S64x256x64x64, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S64x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x256x64x64_S16384x4096 : S64x256x64x64.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S16384x4096_S64x256x64x64 : S16384x4096.ShapeCasts S64x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x256x64x64 : Shape := ⟨4, ![64, 256, 64, 64]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S64x256x64x64, .f32⟩
  | .hbm, ⟨1, _⟩ => ⟨S64x256x64x64, .f32⟩
  | .hbm, ⟨2, _⟩ => ⟨S64x256x64x64, .f32⟩
  | .hbm, ⟨3, _⟩ => ⟨S_, .f32⟩
  | .hbm, ⟨4, _⟩ => ⟨S64x256x64x64, .f32⟩
  | .hbm, ⟨5, _⟩ => ⟨S64x256x64x64, .f32⟩
  | .hbm, ⟨6, _⟩ => ⟨S64x256x64x64, .f32⟩
  | .hbm, ⟨7, _⟩ => ⟨S64x256x64x64, .f32⟩
  | .hbm, ⟨8, _⟩ => ⟨S_, .f32⟩
  | .hbm, ⟨9, _⟩ => ⟨S64x256x64x64, .f32⟩
  | .hbm, ⟨10, _⟩ => ⟨S64x256x64x64, .f32⟩
  | .hbm, ⟨11, _⟩ => ⟨S_, .f32⟩
  | .hbm, ⟨12, _⟩ => ⟨S64x256x64x64, .f32⟩
  | .hbm, ⟨13, _⟩ => ⟨S64x256x64x64, .f32⟩
  | .hbm, ⟨14, _⟩ => ⟨S64x256x64x64, .f32⟩
  | .hbm, ⟨15, _⟩ => ⟨S64x256x64x64, .f32⟩
  | _, _ => ⟨S64x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S64x256x64x64 : S_.BroadcastsInDim S64x256x64x64 (![] : Fin 0 → Fin S64x256x64x64.rank)

variable [Facts₀]

class Facts : Prop extends Facts₀ where

variable [Facts]
-- ==== Proof.GateSpec.lean ====
/-
  The function both programs compute, entry by entry: for arrays `x` and `mk` of one shape,
      out = x + x · σ(2 · (x · mk)),        σ(y) = 1 / (1 + e^(−y)),
  the factor 2 kept as the f32 word both programs print (never evaluated: the same word on both sides).
  Three facts about it, none about a program:
    * a pointwise function of two arrays commutes with a change of shape there and back (the kernel computes on the
      arrays flattened to two axes and unflattens the result);
    * the f32 word 0x3F800000 denotes the real 1;
    * the host's spelling of σ — negate, exponential, add 1, divide 1 by it — IS the logistic operation on the
      extended reals, at every argument including ±∞ (the operation is defined as that quotient).
-/
import Idealize.ShloMosaic.PureOps
import Idealize.ShloMosaic.PureOps.Ideal
import Idealize.ShloMosaic.PureOps.Ideal.Laws
import Idealize.ShloMosaic.Lib.Pipeline.Value

noncomputable section

namespace Cert.Gate

open Idealize.ShloMosaic

variable {F : FTy → Type} [FloatOps F]

/-- One entry of the result from one entry of each argument: `a + a · σ(2 · (a · b))`. -/
def gateAt (a b : F .f32) : F .f32 :=
  FloatOps.addf a (FloatOps.mulf a (FloatOps.logistic (FloatOps.mulf (FloatOps.ofBits .f32 0x40000000#32) (FloatOps.mulf a b))))

/-- The result array over any index type: entry `i` depends on entry `i` of each argument only. -/
def gated {ι : Type} (x mk : ι → F .f32) : ι → F .f32 := fun i => gateAt (x i) (mk i)

theorem gated_apply {ι : Type} (x mk : ι → F .f32) (i : ι) : gated x mk i = gateAt (x i) (mk i) := rfl

/-- Flatten both arguments to another shape of as many entries, compute entry by entry there, and change the shape
    back: the result is the entry-by-entry computation on the arguments as they were, because the two changes of
    shape are inverse bijections of the index sets (row-major order is kept both ways). -/
theorem shapeCast_gated {s t : Shape} (x mk : s.Idx → F .f32) (h : s.ShapeCasts t) (h' : t.ShapeCasts s) :
    shapeCast s (gated (shapeCast t x h) (shapeCast t mk h)) h' = gated x mk := by
  funext j
  show gateAt (x (Shape.reshapeEquiv _ (Shape.reshapeEquiv _ j))) (mk (Shape.reshapeEquiv _ (Shape.reshapeEquiv _ j))) = _
  rw [Shape.reshapeEquiv_reshapeEquiv, Shape.reshapeEquiv_self]
  rfl

/-- The f32 word of `1.0` denotes the real number 1: sign 0, biased exponent 127, fraction 0. -/
theorem one_f32 : Ideal.ofBits .f32 0x3F800000#32 = 1 := by
  simp [Ideal.ofBits, Ideal.ieee, -EReal.coe_mul]
  norm_num

/-- On the extended reals the host's expansion `1 / (1 + exp (−y))`, with the host's own negation, exponential and
    quotient and the literal `1.0` twice, is the logistic operation at `y`: that operation is by definition the
    quotient `1 / (1 + e^(−y))` with the conventions of the quotient and the exponential at the infinities. -/
theorem host_logistic (y : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf y)))
      = FloatOps.logistic y := by
  simp only [Ideal.ofBits_def, one_f32]
  rfl

end Cert.Gate

end
-- ==== Proof.KernelArray.lean ====
/-
  What the idealized kernel program leaves in its result buffer, as one function of the two argument arrays.

  The program flattens each argument f32[64, 256, 64, 64] to f32[16384, 4096] (row-major order kept), runs one
  pipelined region over 64 grid points, and unflattens the region's output back to f32[64, 256, 64, 64].
  Point `t` of the region reads rows 256·t … 256·t + 255 (all 4096 columns) of both flattened arguments and writes
  the same rows of the output: block index (t, 0) on all three windows, so an output entry is computed from the
  entries of the inputs at the SAME flattened index, by `a + a · σ(2 · (a · b))`. The 64 blocks of 256 rows tile
  the 16384 rows, so after the run the whole output array is that entry-by-entry function of the flattened arguments;
  and a change of shape there and back is the identity on indices, so the unflattened result is the same entry-by-entry
  function of the arguments themselves.
-/
import proofs.«181202_j38783554683569_1_alg».proof.Proof.Gen.KernelIdeal.Frame
import proofs.«181202_j38783554683569_1_alg».proof.Proof.GateSpec
import Idealize.ShloMosaic.Lib.Pipeline.Value
import Idealize.ShloMosaic.Lib.StableHlo.Run

set_option maxRecDepth 16384

noncomputable section

namespace Cert.KernelIdeal.GateValue

open Idealize.ShloMosaic Idealize.ShloMosaic.TcCoe Idealize.SL.Sem
open Idealize.ShloMosaic.Pipeline (Dat Cfg Window)
open Cert.KernelIdeal Cert.KernelIdeal.Gen Cert.Gate

variable {F : FTy → Type} [FloatOps F]
variable (m : (ℓ : Loc nD τ sig) → Buf (Elt F) ℓ) (ρ : Dev nD → PrngReg)

/-! ## One grid point -/

/-- The body loads and stores its whole 256 × 4096 buffers: every rectangle starts at the origin. -/
theorem origin : (![0, 0] : Fin 2 → Nat) = fun _ => 0 := funext fun a => by fin_cases a <;> rfl

/-- The value the body stores is the entry-by-entry gate of the two blocks it loaded: its two changes of shape are
    between equal shapes (the identity), the splat of the literal 2 is that word at every entry, and the remaining
    operations act entry by entry. -/
theorem payload_eq (x0 x1 : Vec F S256x4096 .f32) : k0_pay1 x0 x1 = gated x0 x1 := by
  unfold k0_pay1
  simp only [shapeCast_self]
  rfl

/-- The printed index maps over the 64 points: all three windows sit on block (t, 0) — the two inputs move with the
    output on both axes. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every row block 0 … 63 (and the one column block) is some point's output block. -/
theorem every_block : ∀ (q0 : Fin 64) (q1 : Fin 1), ∃ t : Fin cfg0.N, win0_2.index t = ![q0.val, q1.val] :=
  (by decide +kernel : ∀ (q0 : Fin 64) (q1 : Fin 1), ∃ t : Fin grid0.N, win0_2.index t = ![q0.val, q1.val])

/-- What point `t` writes back is block `t` of the entry-by-entry gate of the two flattened arrays as the region finds
    them: the output block's entry `j` was computed from the input blocks' entries `j`, and entry `j` of each input
    block is the array's entry at the same place as entry `j` of the output block. -/
theorem flushed_eq (c : Dev nD) (t : Fin cfg0.N) :
    (dats m 0 c).flushed 2 t = ((cfg0.win 2).blk t).view.read (Elt F) (gated (V m c main_v0) (V m c main_v1)) := by
  show (cfg0.win 2).cut (grid0.coords t) ((dats m 0 c).after 2 t) = _
  rw [after0_2]
  unfold out0_2
  rw [View.canon_unit_zero origin]
  simp only [View.ld_unit_zero (S := S256x4096) origin]
  rw [payload_eq]
  obtain ⟨e0, e1, e2, e3⟩ := same_block t
  funext j
  show gateAt (V m c main_v0 (((cfg0.win 0).blk t).view.emb j)) (V m c main_v1 (((cfg0.win 1).blk t).view.emb j)) = gateAt (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  rw [h0, h1]

/-! ## The 64 blocks tile the output array -/

/-- An index of the output array is in point `t`'s block iff each coordinate is in the block's range on its axis. -/
theorem mem_blk (t : Fin cfg0.N) (i : S16384x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v2).slice (win0_2.rect t)).set ↔ _
  rw [View.set_slice_whole, Rect.mem_set_unit]
  exact Iff.rfl

/-- Row `r` lies in row block `r / 256`, which is some point's block, and every point writes its block back. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := every_block ⟨(i 0).val / 256, by omega⟩ ⟨0, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- After the region its output array is the entry-by-entry gate of the two flattened arrays. -/
theorem region_array (c : Dev nD) : (dats m 0 c).arrAt 2 cfg0.N = gated (V m c main_v0) (V m c main_v1) :=
  (dats m 0 c).arrAt_eq_of_cover 2 _ (fun t _ => flushed_eq m c t) covered

/-! ## The host lines around the region -/

/-- The region finds, as its first operand, the first argument flattened. -/
theorem flat_arg0 (c : Dev nD) : (V m c main_v0 : S16384x4096.Idx → Elt F .f32)
    = shapeCast S16384x4096 (m ((c : Thread nD τ).loc main_arg0)) shapeCasts_S64x256x64x64_S16384x4096 := by
  show StableHlo.after hostOps0 (fun b => m (c, b)) (Proc.devRef .tc main_v0) = _
  after_results
  rfl

/-- And as its second operand the second argument flattened. -/
theorem flat_arg1 (c : Dev nD) : (V m c main_v1 : S16384x4096.Idx → Elt F .f32)
    = shapeCast S16384x4096 (m ((c : Thread nD τ).loc main_arg1)) shapeCasts_S64x256x64x64_S16384x4096 := by
  show StableHlo.after hostOps0 (fun b => m (c, b)) (Proc.devRef .tc main_v1) = _
  after_results
  rfl

/-- The one host line after the region unflattens the region's output array into the program's result. -/
theorem tail_result (c : Dev nD) :
    (Pipeline.afterTail₀ cfgs (dats m) 0 (V0 m) [hostOps1] c main_v3 : S64x256x64x64.Idx → Elt F .f32)
      = shapeCast S64x256x64x64 ((dats m 0 c).arrAt 2 cfg0.N) shapeCasts_S16384x4096_S64x256x64x64 := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2)
      = (dats m 0 c).arrAt 2 cfg0.N from Pipeline.withArrays_arr spec0 launch0.win.arr_inj c _ _ 2]
  rfl

/-! ## The result -/

/-- The program's result buffer after the run, on core `c`: the entry-by-entry gate of the two argument arrays — the
    region's output is the gate of the flattened arguments, and unflattening it undoes the flattening. -/
theorem result_eq (c : Dev nD) :
    (Pipeline.afterTail₀ cfgs (dats m) 0 (V0 m) [hostOps1] c main_v3 : S64x256x64x64.Idx → Elt F .f32)
      = gated (m ((c : Thread nD τ).loc main_arg0)) (m ((c : Thread nD τ).loc main_arg1)) := by
  rw [tail_result, region_array, flat_arg0, flat_arg1]
  exact shapeCast_gated _ _ _ _

/-- Every weakly fair execution of the idealized kernel program terminates with its result buffer at the gate of its
    arguments and the arguments as launched: the generated frame run, with the result buffer (no array of the
    pipeline: it passes the region by and is written by the line after it) read off the run's post. -/
theorem run : θ_run defs (onTc (τ := τ) (main (F := F))) ⟨m, fun _ => 0, ρ⟩ fun r => ∀ c : Dev nD,
      r.2.mem ((c.tc : Thread nD τ).loc main_v3) = gated (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.GateValue

end
-- ==== Proof.ReferenceValue.lean ====
/-
  The idealized reference computes the same entry-by-entry function directly on the 4-axis arrays:
      x + x · (1 / (1 + exp (−(2 · (x · mk))))),
  with the host's own negation, exponential and quotient and the literal 1.0 printed twice. Entry by entry that
  quotient is the logistic operation (its definition on the extended reals), so the reference's result is the gate.
-/
import proofs.«181202_j38783554683569_1_alg».proof.Proof.Gen.ReferenceIdeal.Read
import proofs.«181202_j38783554683569_1_alg».proof.Proof.GateSpec

noncomputable section

namespace Cert.ReferenceIdeal.GateValue

open Idealize.ShloMosaic
open Cert.ReferenceIdeal Cert.ReferenceIdeal.Read Cert.Gate

/-- The reference's last stage, read one operation at a time at an index `i`: the two scalar literals broadcast to
    every entry, the product, negation, exponential, sum and quotient each at `i`; the quotient `1 / (1 + e^(−y))`
    is the logistic operation at `y = 2 · (x i · mk i)`. -/
theorem result_is_gated (x mk : S64x256x64x64.Idx → Ideal .f32) :
    val_main_v10 (F := Ideal) x mk = gated x mk := by
  funext i
  rw [val_main_v10_apply, val_main_v9_apply, val_main_v8_apply, val_main_v7_apply, val_main_cst_1_apply,
    val_main_v6_apply, val_main_v5_apply, val_main_cst_0_apply, val_main_v4_apply, val_main_v3_apply,
    val_main_v2_apply, val_main_v1_apply, val_main_cst_apply, val_main_v0_apply]
  rw [host_logistic]
  rfl

end Cert.ReferenceIdeal.GateValue

end
-- ==== Proof.lean ====
/-
  The five claims for the gate kernel `out = x + x · σ(2 · (x · mk))` over f32[64, 256, 64, 64].

  The kernel program flattens both arguments to [16384, 4096], computes the gate on 64 row blocks of 256 rows in one
  pipelined region (the logistic function as one operation), and unflattens; the reference computes the same
  expression directly on the 4-axis arrays with the logistic function spelled `1 / (1 + exp (−y))`.
  * The three frames: the kernel programs' are the generated frame runs; the reference's is its generated run with the
    result dropped. None needs the precondition.
  * `preserves`: the ideal pass rewrote nothing, so there is nothing to state.
  * `algebraic`: on the extended reals both result arrays are the entry-by-entry function `gated` of the arguments
    (Proof/KernelArray.lean for the kernel: the blocks tile the flattened array and the two changes of shape cancel;
    Proof/ReferenceValue.lean for the reference: the host's quotient IS the logistic operation). The identity holds at
    every extended real, so finiteness of the inputs is not used.
-/
import proofs.«181202_j38783554683569_1_alg».proof.Defs
import proofs.«181202_j38783554683569_1_alg».proof.Proof.Gen.Kernel
import proofs.«181202_j38783554683569_1_alg».proof.Proof.Gen.Kernel.Skeleton
import proofs.«181202_j38783554683569_1_alg».proof.Proof.Gen.Kernel.Launch
import proofs.«181202_j38783554683569_1_alg».proof.Proof.Gen.Kernel.Points
import proofs.«181202_j38783554683569_1_alg».proof.Proof.Gen.Kernel.Frame
import proofs.«181202_j38783554683569_1_alg».proof.Proof.Gen.KernelIdeal
import proofs.«181202_j38783554683569_1_alg».proof.Proof.Gen.KernelIdeal.Skeleton
import proofs.«181202_j38783554683569_1_alg».proof.Proof.Gen.KernelIdeal.Launch
import proofs.«181202_j38783554683569_1_alg».proof.Proof.Gen.KernelIdeal.Points
import proofs.«181202_j38783554683569_1_alg».proof.Proof.Gen.KernelIdeal.Frame
import proofs.«181202_j38783554683569_1_alg».proof.Proof.Gen.ReferenceIdeal
import proofs.«181202_j38783554683569_1_alg».proof.Proof.Gen.Pre_finite_inputs
import proofs.«181202_j38783554683569_1_alg».proof.Proof.Gen.ReferenceIdeal.Run
import proofs.«181202_j38783554683569_1_alg».proof.Proof.Gen.ReferenceIdeal.Read
import proofs.«181202_j38783554683569_1_alg».proof.Proof.GateSpec
import proofs.«181202_j38783554683569_1_alg».proof.Proof.KernelArray
import proofs.«181202_j38783554683569_1_alg».proof.Proof.ReferenceValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with their result at `gated` of their arguments, and the arguments agree. -/
theorem algebraic : Cert.algebraic_KernelIdeal_ReferenceIdeal := by
  intro m ρ m' ρ' _ hagree
  refine ⟨_, Cert.KernelIdeal.GateValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.GateValue.result_is_gated, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
